-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x16 : Shape := ⟨2, ![800000, 16]⟩
abbrev S144x128 : Shape := ⟨2, ![144, 128]⟩
abbrev S128 : Shape := ⟨1, ![128]⟩
abbrev S192x128 : Shape := ⟨2, ![192, 128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S144x128 : S_.BroadcastsInDim S144x128 (![] : Fin 0 → Fin S144x128.rank)
  reducesTo_S144x128_S_d0_1 : S144x128.ReducesTo [0, 1] S_
  bcast_S_S128 : S_.BroadcastsInDim S128 (![] : Fin 0 → Fin S128.rank)
  reducesTo_S128_S_d0 : S128.ReducesTo [0] S_
  bcast_S_S192x128 : S_.BroadcastsInDim S192x128 (![] : Fin 0 → Fin S192x128.rank)
  reducesTo_S192x128_S_d0_1 : S192x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S192x128 .f32) (main_arg6 : FVec F S128 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S192x128 .f32 := Host.absf main_arg5
  let main_cst_6 : FVec F S_ .f32 := constant S_ .f32 0x7F800000#32
  let main_v20 : FVec F S192x128 .f32 := broadcastInDim S192x128 ![] bcast_S_S192x128 main_cst_6
  let main_v21 : IVec S192x128 1 := cmpf .olt main_v19 main_v20
  let main_c_7 : IVec S_ 1 := constantI S_ 1 1#1
  let main_v22 : IVec S_ 1 := (fun x v => Host.reduce IntOp.andi x v reducesTo_S192x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S50000x64 .f32) (main_arg1 : IVec S2x800000 32) (main_arg2 : FVec F S800000x16 .f32) (main_arg3 : FVec F S144x128 .f32) (main_arg4 : FVec F S128 .f32) (main_arg5 : FVec F S192x128 .f32) (main_arg6 : FVec F S128 .f32) (main_arg7 : FVec F S128x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S144x128 .f32 := Host.absf main_arg3
  let main_cst_2 : FVec F S_ .f32 := constant S_ .f32 0x7F800000#32
  let main_v10 : FVec F S144x128 .f32 := broadcastInDim S144x128 ![] bcast_S_S144x128 main_cst_2
  let main_v11 : IVec S144x128 1 := cmpf .olt main_v9 main_v10
  let main_c_3 : IVec S_ 1 := constantI S_ 1 1#1
  let main_v12 : IVec S_ 1 := (fun x v => Host.reduce IntOp.andi x v reducesTo_S144x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x64 : Shape := ⟨2, ![50000, 64]⟩
abbrev S2x800000 : Shape := ⟨2, ![2, 800000]⟩
abbrev S800000x16 : Shape := ⟨2, ![800000, 16]⟩
abbrev S144x128 : Shape := ⟨2, ![144, 128]⟩
abbrev S128 : Shape := ⟨1, ![128]⟩
abbrev S192x128 : Shape := ⟨2, ![192, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S64x128 : Shape := ⟨2, ![64, 128]⟩
abbrev S16x128 : Shape := ⟨2, ![16, 128]⟩
abbrev S800000x128 : Shape := ⟨2, ![800000, 128]⟩
abbrev S10000x64 : Shape := ⟨2, ![10000, 64]⟩
abbrev S10000x16 : Shape := ⟨2, ![10000, 16]⟩
abbrev S10000x128 : Shape := ⟨2, ![10000, 128]⟩
abbrev S1x128 : Shape := ⟨2, ![1, 128]⟩
abbrev S50000x128 : Shape := ⟨2, ![50000, 128]⟩
abbrev S128x128 : Shape := ⟨2, ![128, 128]⟩
abbrev S5000x64 : Shape := ⟨2, ![5000, 64]⟩
abbrev S5000x128 : Shape := ⟨2, ![5000, 128]⟩
abbrev S1x64 : Shape := ⟨2, ![1, 64]⟩

abbrev nBuf : Space → Nat
  | .hbm => 42
  | .vmem => 23
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x16, .f32⟩
  | .hbm, ⟨3, _⟩ => ⟨S144x128, .f32⟩
  | .hbm, ⟨4, _⟩ => ⟨S128, .f32⟩
  | .hbm, ⟨5, _⟩ => ⟨S192x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .f32⟩
  | .hbm, ⟨31, _⟩ => ⟨S64x128, .f32⟩
  | .hbm, ⟨32, _⟩ => ⟨S64x128, .f32⟩
  | .hbm, ⟨33, _⟩ => ⟨S16x128, .f32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S64x128, .f32⟩
  | .hbm, ⟨40, _⟩ => ⟨S128x128, .f32⟩
  | .hbm, ⟨41, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x16, .f32⟩
  | .local _ .vmem, ⟨5, _⟩ => ⟨S10000x16, .f32⟩
  | .local _ .vmem, ⟨6, _⟩ => ⟨S64x128, .f32⟩
  | .local _ .vmem, ⟨7, _⟩ => ⟨S64x128, .f32⟩
  | .local _ .vmem, ⟨8, _⟩ => ⟨S16x128, .f32⟩
  | .local _ .vmem, ⟨9, _⟩ => ⟨S128, .f32⟩
  | .local _ .vmem, ⟨10, _⟩ => ⟨S10000x128, .f32⟩
  | .local _ .vmem, ⟨11, _⟩ => ⟨S10000x128, .f32⟩
  | .local _ .vmem, ⟨12, _⟩ => ⟨S5000x64, .f32⟩
  | .local _ .vmem, ⟨13, _⟩ => ⟨S5000x64, .f32⟩
  | .local _ .vmem, ⟨14, _⟩ => ⟨S5000x128, .f32⟩
  | .local _ .vmem, ⟨15, _⟩ => ⟨S5000x128, .f32⟩
  | .local _ .vmem, ⟨16, _⟩ => ⟨S64x128, .f32⟩
  | .local _ .vmem, ⟨17, _⟩ => ⟨S128x128, .f32⟩
  | .local _ .vmem, ⟨18, _⟩ => ⟨S128, .f32⟩
  | .local _ .vmem, ⟨19, _⟩ => ⟨S128x64, .f32⟩
  | .local _ .vmem, ⟨20, _⟩ => ⟨S64, .f32⟩
  | .local _ .vmem, ⟨21, _⟩ => ⟨S5000x64, .f32⟩
  | .local _ .vmem, ⟨22, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S144x128_S64x128_0_0 : S144x128.Slices ![0, 0] S64x128
  slices_S144x128_S64x128_64_0 : S144x128.Slices ![64, 0] S64x128
  slices_S144x128_S16x128_128_0 : S144x128.Slices ![128, 0] S16x128
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S10000x16_S10000x16_0_0 : ∀ a, (![0, 0] : Fin 2 → Nat) a + S10000x16.size a ≤ S10000x16.size a
  h_S10000x16 : 0 < S10000x16.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S_S50000x128 : S_.BroadcastsInDim S50000x128 (![] : Fin 0 → Fin S50000x128.rank)
  slices_S192x128_S64x128_0_0 : S192x128.Slices ![0, 0] S64x128
  slices_S192x128_S128x128_64_0 : S192x128.Slices ![64, 0] S128x128
  inb_S5000x64_S5000x64_0_0 : ∀ a, (![0, 0] : Fin 2 → Nat) a + S5000x64.size a ≤ S5000x64.size a
  h_S5000x64 : 0 < S5000x64.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  dot_S10000x64_S64x128_S10000x128_1_0_0_1_n_n_wf : DotDims.WF S10000x64 S64x128 S10000x128 [1] [0] [0] [1] [] []
  dot_S10000x16_S16x128_S10000x128_1_0_0_1_n_n_wf : DotDims.WF S10000x16 S16x128 S10000x128 [1] [0] [0] [1] [] []
  scatter_S50000x128_S800000x1_S800000x128_1_0_0_1_wf : ScatterDims.WF S50000x128 S800000x1 S800000x128 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S800000x64.size a
  hwx0_0 : ∀ i : grid0.Coords, EltTy.bits .f32 = 32 ∨ (Rect.block (s := S800000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S800000x64.size a
  hwx0_1 : ∀ i : grid0.Coords, EltTy.bits .f32 = 32 ∨ (Rect.block (s := S800000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S800000x16.size a
  hwx0_2 : ∀ i : grid0.Coords, EltTy.bits .f32 = 32 ∨ (Rect.block (s := S800000x16) S10000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x128.size a ≤ S16x128.size a
  hwx0_5 : ∀ i : grid0.Coords, EltTy.bits .f32 = 32 ∨ (Rect.block (s := S16x128) S16x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x128.size a ≤ S800000x128.size a
  hwx0_7 : ∀ i : grid0.Coords, EltTy.bits .f32 = 32 ∨ (Rect.block (s := S800000x128) S10000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v10) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S16x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S10000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x16 : Shape := ⟨2, ![800000, 16]⟩
abbrev S144x128 : Shape := ⟨2, ![144, 128]⟩
abbrev S128 : Shape := ⟨1, ![128]⟩
abbrev S192x128 : Shape := ⟨2, ![192, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x144 : Shape := ⟨2, ![800000, 144]⟩
abbrev S800000x128 : Shape := ⟨2, ![800000, 128]⟩
abbrev S1x128 : Shape := ⟨2, ![1, 128]⟩
abbrev S50000x128 : Shape := ⟨2, ![50000, 128]⟩
abbrev S50000x192 : Shape := ⟨2, ![50000, 192]⟩
abbrev S1x64 : Shape := ⟨2, ![1, 64]⟩

abbrev nBuf : Space → Nat
  | .hbm => 55
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x16, .f32⟩
  | .hbm, ⟨3, _⟩ => ⟨S144x128, .f32⟩
  | .hbm, ⟨4, _⟩ => ⟨S128, .f32⟩
  | .hbm, ⟨5, _⟩ => ⟨S192x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .f32⟩
  | .hbm, ⟨31, _⟩ => ⟨S800000x144, .f32⟩
  | .hbm, ⟨32, _⟩ => ⟨S800000x128, .f32⟩
  | .hbm, ⟨33, _⟩ => ⟨S1x128, .f32⟩
  | .hbm, ⟨34, _⟩ => ⟨S800000x128, .f32⟩
  | .hbm, ⟨35, _⟩ => ⟨S800000x128, .f32⟩
  | .hbm, ⟨36, _⟩ => ⟨S_, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S50000x192, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S50000x64, .f32⟩
  | .hbm, ⟨52, _⟩ => ⟨S1x64, .f32⟩
  | .hbm, ⟨53, _⟩ => ⟨S50000x64, .f32⟩
  | .hbm, ⟨54, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call1_cst : Ref sig .tc := ⟨.hbm, 48, rfl⟩
abbrev main_call1_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x16_S800000x144_d1 : Shape.Concatenates [S800000x64, S800000x64, S800000x16] S800000x144 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x64_S50000x128_S50000x192_d1 : Shape.Concatenates [S50000x64, S50000x128] S50000x192 1
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x144_S144x128_S800000x128_1_0_0_1_n_n_wf : DotDims.WF S800000x144 S144x128 S800000x128 [1] [0] [0] [1] [] []
  scatter_S50000x128_S800000x1_S800000x128_1_0_0_1_wf : ScatterDims.WF S50000x128 S800000x1 S800000x128 [1] [0] [0] 1
  dot_S50000x192_S192x128_S50000x128_1_0_0_1_n_n_wf : DotDims.WF S50000x192 S192x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x144_S144x128_S800000x128_1_0_0_1_n_n : DotDims S800000x144 S144x128 S800000x128 where
  lhsContracting := [1]
  rhsContracting := [0]
  lhsNonContracting := [0]
  rhsNonContracting := [1]
  lhsBatch := []
  rhsBatch := []
  wf := dot_S800000x144_S144x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.MlpSpec.lean ====
import Idealize.ShloMosaic.PureOps.Ideal.Laws
import Idealize.ShloMosaic.Lib.ValueIdx
import Idealize.ShloMosaic.Lib.ValueLayout

noncomputable section

open scoped BigOperators

/-! # The two dense layers of one message-passing step, entry by entry

Everything is over the extended reals. An array with `r` rows and `c` columns is a function of its index; a product
`x · w` at entry `(r, c)` is `∑ k, x (r, k) * w (k, c)`.

* The EDGE layer takes, for every edge, the features of its two end nodes (64 numbers each) and the edge's own 16
  attributes, and returns `max (src · W₁ + tgt · W₂ + ea · W₃ + b, 0)`, 128 numbers per edge, where `W₁, W₂, W₃` are rows
  `0–63`, `64–127` and `128–143` of one 144-row weight.
* The NODE layer takes, for every node, its 64 features and the 128 numbers aggregated from its edges, forms the hidden
  row `max (nf · U₁ + agg · U₂ + b₁, 0)` with `U₁, U₂` rows `0–63` and `64–191` of one 192-row weight, and returns
  `hidden · W + b₂`, 64 numbers per node.

Each layer is written twice: with the weight's row blocks as separate arrays (`edgeSplit`, `nodeSplit`), and with the
whole weight read at an offset (`edgeLayer`, `nodeLayer`). The two agree when the separate arrays are the weight's row
slices (`edgeSplit_slices`, `nodeSplit_slices`), because a row slice from `o` read at row `k` is the source at row `o + k`. -/

namespace Cert.Mlp

open Idealize.ShloMosaic Idealize.ShloMosaic.ValueIdx

/-- An array of `r` rows and `c` columns of extended reals. -/
abbrev Mat (r c : ℕ) : Type := (⟨2, ![r, c]⟩ : Shape).Idx → EReal
/-- A vector of `n` extended reals. -/
abbrev Row (n : ℕ) : Type := (⟨1, ![n]⟩ : Shape).Idx → EReal

variable {M K K' N : ℕ}

/-- The row of an index of an `M × N` array, as a number below `M`. -/
abbrev rowOf (j : (⟨2, ![M, N]⟩ : Shape).Idx) : Fin M := ⟨(j 0).val, idx2_lt0 j⟩
/-- The column of an index of an `M × N` array, as a number below `N`. -/
abbrev colOf (j : (⟨2, ![M, N]⟩ : Shape).Idx) : Fin N := ⟨(j 1).val, idx2_lt1 j⟩

theorem rowOf_ix2 (r : Fin M) (c : Fin N) : rowOf (ix2 r c) = r := rfl
theorem colOf_ix2 (r : Fin M) (c : Fin N) : colOf (ix2 r c) = c := rfl

/-- The product `x · w`: entry `(r, c)` is `∑ k, x (r, k) * w (k, c)`. -/
def prod (x : Mat M K) (w : Mat K N) : Mat M N :=
  fun j => ∑ k : Fin K, x (ix2 (rowOf j) k) * w (ix2 k (colOf j))

/-- The product of `x` with rows `o, …, o + K - 1` of a taller `w`: entry `(r, c)` is `∑ k, x (r, k) * w (o + k, c)`. -/
def prodRows (o : ℕ) (h : o + K ≤ K') (x : Mat M K) (w : Mat K' N) : Mat M N :=
  fun j => ∑ k : Fin K, x (ix2 (rowOf j) k)
    * w (ix2 (⟨o + k.val, Nat.lt_of_lt_of_le (Nat.add_lt_add_left k.isLt o) h⟩ : Fin K') (colOf j))

/-- A product with a row slice of `w` taken from row `o` is the product with `w` read from row `o`. -/
theorem prod_slice (o : ℕ) (h : o + K ≤ K') (x : Mat M K) (w : Mat K' N)
    (hs : (⟨2, ![K', N]⟩ : Shape).Slices ![o, 0] ⟨2, ![K, N]⟩) :
    prod x (extractStridedSlice ⟨2, ![K, N]⟩ ![o, 0] w hs) = prodRows o h x w := by
  funext j
  unfold prod prodRows
  refine Finset.sum_congr rfl fun k _ => ?_
  rw [slice2_axis0_eq]

/-! ## The edge layer -/

/-- The edge layer with the weight's three row blocks as separate arrays. -/
def edgeSplit (src tgt : Mat M 64) (ea : Mat M 16) (w1 w2 : Mat 64 128) (w3 : Mat 16 128) (b : Row 128) : Mat M 128 :=
  fun j => max (prod src w1 j + prod tgt w2 j + prod ea w3 j + b (ix1 (colOf j))) 0

/-- The edge layer over the whole 144-row weight: the end nodes' features meet rows `0–63` and `64–127`, the edge's
    attributes rows `128–143`. -/
def edgeLayer (src tgt : Mat M 64) (ea : Mat M 16) (w : Mat 144 128) (b : Row 128) : Mat M 128 :=
  fun j => max (prodRows 0 (by norm_num) src w j + prodRows 64 (by norm_num) tgt w j + prodRows 128 (by norm_num) ea w j
    + b (ix1 (colOf j))) 0

/-- With the weight's row slices for the three blocks, the two forms of the edge layer agree. -/
theorem edgeSplit_slices (src tgt : Mat M 64) (ea : Mat M 16) (w : Mat 144 128) (b : Row 128)
    (h1 : (⟨2, ![144, 128]⟩ : Shape).Slices ![0, 0] ⟨2, ![64, 128]⟩)
    (h2 : (⟨2, ![144, 128]⟩ : Shape).Slices ![64, 0] ⟨2, ![64, 128]⟩)
    (h3 : (⟨2, ![144, 128]⟩ : Shape).Slices ![128, 0] ⟨2, ![16, 128]⟩) :
    edgeSplit src tgt ea (extractStridedSlice ⟨2, ![64, 128]⟩ ![0, 0] w h1)
      (extractStridedSlice ⟨2, ![64, 128]⟩ ![64, 0] w h2) (extractStridedSlice ⟨2, ![16, 128]⟩ ![128, 0] w h3) b
      = edgeLayer src tgt ea w b := by
  funext j
  unfold edgeSplit edgeLayer
  rw [prod_slice 0 (by norm_num) src w h1, prod_slice 64 (by norm_num) tgt w h2, prod_slice 128 (by norm_num) ea w h3]

/-! ## The node layer -/

/-- The hidden row of the node layer, the first weight's two row blocks as separate arrays. -/
def hiddenSplit (nf : Mat M 64) (agg : Mat M 128) (u1 : Mat 64 128) (u2 : Mat 128 128) (b1 : Row 128) : Mat M 128 :=
  fun j => max (prod nf u1 j + prod agg u2 j + b1 (ix1 (colOf j))) 0

/-- The node layer with the first weight's two row blocks as separate arrays. -/
def nodeSplit (nf : Mat M 64) (agg : Mat M 128) (u1 : Mat 64 128) (u2 : Mat 128 128) (b1 : Row 128)
    (w : Mat 128 64) (b2 : Row 64) : Mat M 64 :=
  fun j => prod (hiddenSplit nf agg u1 u2 b1) w j + b2 (ix1 (colOf j))

/-- The hidden row over the whole 192-row weight: the node's features meet rows `0–63`, the aggregate rows `64–191`. -/
def hiddenLayer (nf : Mat M 64) (agg : Mat M 128) (u : Mat 192 128) (b1 : Row 128) : Mat M 128 :=
  fun j => max (prodRows 0 (by norm_num) nf u j + prodRows 64 (by norm_num) agg u j + b1 (ix1 (colOf j))) 0

/-- The node layer over the whole 192-row first weight. -/
def nodeLayer (nf : Mat M 64) (agg : Mat M 128) (u : Mat 192 128) (b1 : Row 128) (w : Mat 128 64) (b2 : Row 64) :
    Mat M 64 :=
  fun j => prod (hiddenLayer nf agg u b1) w j + b2 (ix1 (colOf j))

/-- With the first weight's row slices for the two blocks, the two forms of the node layer agree. -/
theorem nodeSplit_slices (nf : Mat M 64) (agg : Mat M 128) (u : Mat 192 128) (b1 : Row 128) (w : Mat 128 64) (b2 : Row 64)
    (h1 : (⟨2, ![192, 128]⟩ : Shape).Slices ![0, 0] ⟨2, ![64, 128]⟩)
    (h2 : (⟨2, ![192, 128]⟩ : Shape).Slices ![64, 0] ⟨2, ![128, 128]⟩) :
    nodeSplit nf agg (extractStridedSlice ⟨2, ![64, 128]⟩ ![0, 0] u h1)
      (extractStridedSlice ⟨2, ![128, 128]⟩ ![64, 0] u h2) b1 w b2 = nodeLayer nf agg u b1 w b2 := by
  unfold nodeSplit nodeLayer hiddenSplit hiddenLayer
  rw [prod_slice 0 (by norm_num) nf u h1, prod_slice 64 (by norm_num) agg u h2]

end Cert.Mlp

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.EdgeValue.lean ====
import proofs.«174974_j146028888089_1_alg».proof.Proof.Gen.KernelIdeal.Frame
import proofs.«174974_j146028888089_1_alg».proof.Proof.MlpSpec
import proofs.«174974_j146028888089_1_alg».proof.Proof.LibPlainDot
import Idealize.ShloMosaic.Lib.Pipeline.Value
import Idealize.ShloMosaic.Lib.ValueLayout

/-! # The edge layer's array after the first kernel region

The first region runs the edge layer over 80 blocks of 10000 edges. A block's result depends only on the same 10000 rows
of the two gathered feature arrays and of the attribute array, and on the whole of the three weight pieces and the bias.
So what point `t` writes back is rows `10000 t … 10000 t + 9999` of ONE function of the region's whole input arrays, the
edge layer itself; the 80 blocks cover all 800000 rows, and the array ends at that function. -/

set_option maxRecDepth 16384

noncomputable section

namespace Cert.KernelIdeal.EdgeValue

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.Mlp (Mat Row rowOf colOf)

variable (V : (c : Dev nD) → (b : Ref sig .tc) → Buf (Elt Ideal) ((c : Thread nD τ).loc b))

/-! ## One block: the body's stored value is the edge layer of its loaded blocks -/

/-- Entry `(p, q)` of the stored block: the three products into zero accumulators are the sums over the 64, 64 and 16
    contracted columns, the format changes are the identity, the bias row is read at column `q`, and the maximum is
    taken against zero. -/
theorem block_eq (x0 x1 : Vec Ideal S10000x64 .f32) (x2 : Vec Ideal S10000x16 .f32) (x3 x4 : Vec Ideal S64x128 .f32)
    (x5 : Vec Ideal S16x128 .f32) (x6 : Vec Ideal S128 .f32) :
    k0_pay1 x0 x1 x2 x3 x4 x5 x6 = Cert.Mlp.edgeSplit x0 x1 x2 x3 x4 x5 x6 := by
  funext j
  obtain ⟨p, q, rfl⟩ : ∃ (p : Fin 10000) (q : Fin 128), j = ix2 p q := ⟨j 0, j 1, eq_ix2 j⟩
  unfold k0_pay1 Cert.Mlp.edgeSplit
  simp only [maximumf_apply, addf_apply, broadcast_apply, truncf_apply, matmul]
  rw [Cert.PlainDot.matmul_zero_apply dot_S10000x64_S64x128_S10000x128_1_0_0_1_n_n rfl,
    Cert.PlainDot.matmul_zero_apply dot_S10000x64_S64x128_S10000x128_1_0_0_1_n_n rfl,
    Cert.PlainDot.matmul_zero_apply dot_S10000x16_S16x128_S10000x128_1_0_0_1_n_n rfl]
  simp only [truncf_apply, shapeCast_self]
  rw [broadcastTo_1b_ab_apply, shapeCast_a_1a_apply]
  unfold Cert.Mlp.prod
  simp only [Cert.Mlp.rowOf_ix2, Cert.Mlp.colOf_ix2]
  show max _ (Ideal.ofBits .f32 0x00000000#32) = _
  rw [Ideal.ofBits_zero_f32]

/-! ## The edge layer is local to a row -/

/-- Two evaluations of the edge layer agree at entries of the same column whose rows hold the same features and
    attributes, under the same weights and bias. -/
theorem edgeSplit_at {M M' : ℕ} (src tgt : Mat M 64) (ea : Mat M 16) (src' tgt' : Mat M' 64) (ea' : Mat M' 16)
    (w1 w2 : Mat 64 128) (w3 : Mat 16 128) (b : Row 128) (w1' w2' : Mat 64 128) (w3' : Mat 16 128) (b' : Row 128)
    (j : (⟨2, ![M, 128]⟩ : Shape).Idx) (j' : (⟨2, ![M', 128]⟩ : Shape).Idx) (hc : colOf j = colOf j')
    (h0 : ∀ k : Fin 64, src (ix2 (rowOf j) k) = src' (ix2 (rowOf j') k))
    (h1 : ∀ k : Fin 64, tgt (ix2 (rowOf j) k) = tgt' (ix2 (rowOf j') k))
    (h2 : ∀ k : Fin 16, ea (ix2 (rowOf j) k) = ea' (ix2 (rowOf j') k))
    (h3 : w1 = w1') (h4 : w2 = w2') (h5 : w3 = w3') (h6 : b = b') :
    Cert.Mlp.edgeSplit src tgt ea w1 w2 w3 b j = Cert.Mlp.edgeSplit src' tgt' ea' w1' w2' w3' b' j' := by
  subst h3 h4 h5 h6
  unfold Cert.Mlp.edgeSplit Cert.Mlp.prod
  rw [hc]
  simp only [h0, h1, h2]

/-! ## The windows' blocks read off the region's arrays -/

theorem hz2 : (![0, 0] : Fin 2 → Nat) = fun _ => 0 := funext fun a => by fin_cases a <;> rfl
theorem hz1 : (![0] : Fin 1 → Nat) = fun _ => 0 := funext fun a => by fin_cases a <;> rfl

/-- The printed index maps over the 80 points: the three row windows move with the output's block, on the row axis
    only; the weight pieces and the bias stay at block 0; the output's block index on the row axis is below 80. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (1 : Fin 2) = 0 ∧ win0_7.index t (0 : Fin 2) ≤ 79 :=
  (by decide +kernel : ∀ t : Fin grid0.N, _)

/-- Every block of 10000 rows is some point's. -/
theorem idx_onto : ∀ q0 : Fin 80, ∃ t : Fin cfg0.N, win0_7.index t = ![q0.val, 0] :=
  (by decide +kernel : ∀ q0 : Fin 80, ∃ t : Fin grid0.N, win0_7.index t = ![q0.val, 0])

/-- The first weight piece's block is the whole piece. -/
theorem wblk3 (c : Dev nD) (t : Fin cfg0.N) : iblk0 V c 3 t = V c main_v18 := by
  obtain ⟨-, -, -, -, -, -, e0, e1, -⟩ := idx_facts t
  funext z
  show V c main_v18 (((cfg0.win 3).blk t).view.emb z) = V c main_v18 z
  refine congrArg (V c main_v18) ?_
  funext a; apply Fin.ext
  match a with
  | ⟨0, _⟩ => show win0_3.index t (0 : Fin 2) * 64 + 1 * (z 0).val = (z 0).val; omega
  | ⟨1, _⟩ => show win0_3.index t (1 : Fin 2) * 128 + 1 * (z 1).val = (z 1).val; omega

/-- The second weight piece's block is the whole piece. -/
theorem wblk4 (c : Dev nD) (t : Fin cfg0.N) : iblk0 V c 4 t = V c main_v19 := by
  obtain ⟨-, -, -, -, -, -, -, -, e0, e1, -⟩ := idx_facts t
  funext z
  show V c main_v19 (((cfg0.win 4).blk t).view.emb z) = V c main_v19 z
  refine congrArg (V c main_v19) ?_
  funext a; apply Fin.ext
  match a with
  | ⟨0, _⟩ => show win0_4.index t (0 : Fin 2) * 64 + 1 * (z 0).val = (z 0).val; omega
  | ⟨1, _⟩ => show win0_4.index t (1 : Fin 2) * 128 + 1 * (z 1).val = (z 1).val; omega

/-- The third weight piece's block is the whole piece. -/
theorem wblk5 (c : Dev nD) (t : Fin cfg0.N) : iblk0 V c 5 t = V c main_v20 := by
  obtain ⟨-, -, -, -, -, -, -, -, -, -, e0, e1, -⟩ := idx_facts t
  funext z
  show V c main_v20 (((cfg0.win 5).blk t).view.emb z) = V c main_v20 z
  refine congrArg (V c main_v20) ?_
  funext a; apply Fin.ext
  match a with
  | ⟨0, _⟩ => show win0_5.index t (0 : Fin 2) * 16 + 1 * (z 0).val = (z 0).val; omega
  | ⟨1, _⟩ => show win0_5.index t (1 : Fin 2) * 128 + 1 * (z 1).val = (z 1).val; omega

/-- The bias window's block is the whole bias. -/
theorem wblk6 (c : Dev nD) (t : Fin cfg0.N) : iblk0 V c 6 t = V c main_arg4 := by
  obtain ⟨-, -, -, -, -, -, -, -, -, -, -, -, e0, -⟩ := idx_facts t
  funext z
  show V c main_arg4 (((cfg0.win 6).blk t).view.emb z) = V c main_arg4 z
  refine congrArg (V c main_arg4) ?_
  funext a; apply Fin.ext
  match a with
  | ⟨0, _⟩ => show win0_6.index t (0 : Fin 1) * 128 + 1 * (z 0).val = (z 0).val; omega

/-- Row `p` of the first gathered array's block at point `t` is row `10000 · (the output's block index) + p` of the array. -/
theorem rblk0 (c : Dev nD) (t : Fin cfg0.N) (p : Fin 10000) (k : Fin 64) (p' : Fin 800000)
    (hp : p'.val = win0_7.index t (0 : Fin 2) * 10000 + p.val) :
    iblk0 V c 0 t (ix2 p k) = V c main_v10 (ix2 p' k) := by
  obtain ⟨e0, e1, -⟩ := idx_facts t
  show V c main_v10 (((cfg0.win 0).blk t).view.emb (ix2 p k)) = V c main_v10 (ix2 p' k)
  refine congrArg (V c main_v10) ?_
  funext a; apply Fin.ext
  match a with
  | ⟨0, _⟩ => show win0_0.index t (0 : Fin 2) * 10000 + 1 * p.val = p'.val; omega
  | ⟨1, _⟩ => show win0_0.index t (1 : Fin 2) * 64 + 1 * k.val = k.val; omega

/-- The same for the second gathered array. -/
theorem rblk1 (c : Dev nD) (t : Fin cfg0.N) (p : Fin 10000) (k : Fin 64) (p' : Fin 800000)
    (hp : p'.val = win0_7.index t (0 : Fin 2) * 10000 + p.val) :
    iblk0 V c 1 t (ix2 p k) = V c main_v17 (ix2 p' k) := by
  obtain ⟨-, -, e0, e1, -⟩ := idx_facts t
  show V c main_v17 (((cfg0.win 1).blk t).view.emb (ix2 p k)) = V c main_v17 (ix2 p' k)
  refine congrArg (V c main_v17) ?_
  funext a; apply Fin.ext
  match a with
  | ⟨0, _⟩ => show win0_1.index t (0 : Fin 2) * 10000 + 1 * p.val = p'.val; omega
  | ⟨1, _⟩ => show win0_1.index t (1 : Fin 2) * 64 + 1 * k.val = k.val; omega

/-- The same for the edges' attributes. -/
theorem rblk2 (c : Dev nD) (t : Fin cfg0.N) (p : Fin 10000) (k : Fin 16) (p' : Fin 800000)
    (hp : p'.val = win0_7.index t (0 : Fin 2) * 10000 + p.val) :
    iblk0 V c 2 t (ix2 p k) = V c main_arg2 (ix2 p' k) := by
  obtain ⟨-, -, -, -, e0, e1, -⟩ := idx_facts t
  show V c main_arg2 (((cfg0.win 2).blk t).view.emb (ix2 p k)) = V c main_arg2 (ix2 p' k)
  refine congrArg (V c main_arg2) ?_
  funext a; apply Fin.ext
  match a with
  | ⟨0, _⟩ => show win0_2.index t (0 : Fin 2) * 10000 + 1 * p.val = p'.val; omega
  | ⟨1, _⟩ => show win0_2.index t (1 : Fin 2) * 16 + 1 * k.val = k.val; omega

/-! ## What a point writes back, and the array after the region -/

/-- The edge layer of the region's whole input arrays. -/
abbrev whole (c : Dev nD) : Mat 800000 128 :=
  Cert.Mlp.edgeSplit (V c main_v10) (V c main_v17) (V c main_arg2) (V c main_v18) (V c main_v19) (V c main_v20) (V c main_arg4)

/-- What point `t` writes back is its block of rows of the edge layer of the whole arrays. -/
theorem flushed_eq (c : Dev nD) (t : Fin cfg0.N) :
    (dat0 (F := Ideal) V c).flushed 7 t = ((cfg0.win 7).blk t).view.read (Elt Ideal) (whole V c) := by
  show (cfg0.win 7).cut (grid0.coords t) ((dat0 V c).after 7 t) = _
  rw [after0_7]
  unfold out0_7
  rw [View.canon_unit_zero hz2]
  simp only [View.ld_unit_zero (S := S10000x64) hz2, View.ld_unit_zero (S := S10000x16) hz2,
    View.ld_unit_zero (S := S64x128) hz2, View.ld_unit_zero (S := S16x128) hz2, View.ld_unit_zero (S := S128) hz1]
  rw [block_eq]
  obtain ⟨-, -, -, -, -, -, -, -, -, -, -, -, -, e1, -⟩ := idx_facts t
  funext y
  obtain ⟨p, q, rfl⟩ : ∃ (p : Fin 10000) (q : Fin 128), y = ix2 p q := ⟨y 0, y 1, eq_ix2 y⟩
  have hrow : (rowOf (((cfg0.win 7).blk t).view.emb (ix2 p q)) : Fin 800000).val = win0_7.index t (0 : Fin 2) * 10000 + p.val := by
    show win0_7.index t (0 : Fin 2) * 10000 + 1 * p.val = _
    omega
  have hcol : colOf (ix2 p q : S10000x128.Idx) = colOf (((cfg0.win 7).blk t).view.emb (ix2 p q)) := by
    apply Fin.ext
    show q.val = win0_7.index t (1 : Fin 2) * 128 + 1 * q.val
    omega
  exact edgeSplit_at (iblk0 V c 0 t) (iblk0 V c 1 t) (iblk0 V c 2 t) (V c main_v10) (V c main_v17) (V c main_arg2)
    (iblk0 V c 3 t) (iblk0 V c 4 t) (iblk0 V c 5 t) (iblk0 V c 6 t) (V c main_v18) (V c main_v19) (V c main_v20) (V c main_arg4)
    (ix2 p q) (((cfg0.win 7).blk t).view.emb (ix2 p q)) hcol
    (fun k => rblk0 V c t p k _ hrow) (fun k => rblk1 V c t p k _ hrow) (fun k => rblk2 V c t p k _ hrow)
    (wblk3 V c t) (wblk4 V c t) (wblk5 V c t) (wblk6 V c t)

/-- An index of the array is in point `t`'s block iff each coordinate is in the block's range on its axis. -/
theorem mem_blk (t : Fin cfg0.N) (i : S800000x128.Idx) :
    i ∈ ((cfg0.win 7).blk t).view.set ↔ ∀ a : Fin 2, win0_7.index t a * S10000x128.size a ≤ (i a).val ∧ (i a).val < win0_7.index t a * S10000x128.size a + S10000x128.size a := by
  show i ∈ ((View.whole main_v21).slice (win0_7.rect t)).set ↔ _
  rw [View.set_slice_whole, Rect.mem_set_unit]
  exact Iff.rfl

/-- Every index of the array lies in some point's block: row `r` is in block `r / 10000`. -/
theorem cover (i : S800000x128.Idx) : ∃ t : Fin cfg0.N, (cfg0.win 7).flush t = true ∧ i ∈ ((cfg0.win 7).blk t).view.set := by
  have hi0 : (i 0).val < 800000 := (i 0).isLt
  have hi1 : (i 1).val < 128 := (i 1).isLt
  obtain ⟨t, ht⟩ := idx_onto ⟨(i 0).val / 10000, by omega⟩
  have q0 : win0_7.index t (0 : Fin 2) = (i 0).val / 10000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 10000 ≤ (i 0).val ∧ (i 0).val < win0_7.index t (0 : Fin 2) * 10000 + 10000; omega
  | ⟨1, _⟩ => show win0_7.index t (1 : Fin 2) * 128 ≤ (i 1).val ∧ (i 1).val < win0_7.index t (1 : Fin 2) * 128 + 128; omega

/-- After the region the edge-feature array is the edge layer of the region's input arrays. -/
theorem final (c : Dev nD) :
    (dat0 (F := Ideal) V c).arrAt 7 cfg0.N
      = Cert.Mlp.edgeSplit (V c main_v10) (V c main_v17) (V c main_arg2) (V c main_v18) (V c main_v19) (V c main_v20)
          (V c main_arg4) :=
  (dat0 (F := Ideal) V c).arrAt_eq_of_cover 7 (whole V c) (fun t _ => flushed_eq V c t) (cover)

end Cert.KernelIdeal.EdgeValue

end
-- ==== Proof.NodeValue.lean ====
import proofs.«174974_j146028888089_1_alg».proof.Proof.Gen.KernelIdeal.Frame
import proofs.«174974_j146028888089_1_alg».proof.Proof.MlpSpec
import proofs.«174974_j146028888089_1_alg».proof.Proof.LibPlainDot
import Idealize.ShloMosaic.Lib.Pipeline.Value
import Idealize.ShloMosaic.Lib.ValueLayout

set_option maxRecDepth 16384

noncomputable section

namespace Cert.KernelIdeal.NodeValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The hidden row, entry by entry: the two products into the zero accumulator are sums over the contraction, the
    bias row is read at the column, and the scalar zero is the real zero. -/
theorem hidden_eq (x0 : Vec Ideal S5000x64 .f32) (x1 : Vec Ideal S5000x128 .f32) (x2 : Vec Ideal S64x128 .f32)
    (x3 : Vec Ideal S128x128 .f32) (x4 : Vec Ideal S128 .f32) :
    maximumf (F := Ideal)
      (addf
        (addf
          (matmul dot_S5000x64_S64x128_S5000x128_1_0_0_1_n_n none (truncf .bf16 x0 bitsLt_bf16_f32)
            (truncf .bf16 x2 bitsLt_bf16_f32) (constant S5000x128 .f32 0x00000000#32))
          (matmul dot_S5000x128_S128x128_S5000x128_1_0_0_1_n_n none (truncf .bf16 x1 bitsLt_bf16_f32)
            (truncf .bf16 x3 bitsLt_bf16_f32) (constant S5000x128 .f32 0x00000000#32)))
        (broadcastTo S5000x128 (shapeCast S1x128 x4 shapeCasts_S128_S1x128) broadcasts_S1x128_S5000x128))
      (broadcast S5000x128 (FloatOps.ofBits .f32 0x00000000#32))
    = Cert.Mlp.hiddenSplit x0 x1 x2 x3 x4 := by
  funext j
  obtain ⟨p, k, rfl⟩ : ∃ (p : Fin 5000) (k : Fin 128), j = ix2 p k := ⟨j 0, j 1, eq_ix2 j⟩
  unfold Cert.Mlp.hiddenSplit Cert.Mlp.prod
  simp only [maximumf_apply, addf_apply, broadcast_apply, matmul]
  rw [Cert.PlainDot.matmul_zero_apply dot_S5000x64_S64x128_S5000x128_1_0_0_1_n_n rfl,
    Cert.PlainDot.matmul_zero_apply dot_S5000x128_S128x128_S5000x128_1_0_0_1_n_n rfl,
    broadcastTo_1b_ab_apply, shapeCast_a_1a_apply]
  show max _ (Ideal.ofBits .f32 0x00000000#32) = _
  rw [Ideal.ofBits_zero_f32]
  rfl

/-- The body's one stored value is the node layer of its loaded blocks: the output product into the zero accumulator is
    the sum over the 128 hidden entries, a change of float format is the identity on the extended reals, and the output
    bias row is read at the column. -/
theorem block_eq (x0 : Vec Ideal S5000x64 .f32) (x1 : Vec Ideal S5000x128 .f32) (x2 : Vec Ideal S64x128 .f32)
    (x3 : Vec Ideal S128x128 .f32) (x4 : Vec Ideal S128 .f32) (x5 : Vec Ideal S128x64 .f32) (x6 : Vec Ideal S64 .f32) :
    k1_pay1 x0 x1 x2 x3 x4 x5 x6 = Cert.Mlp.nodeSplit x0 x1 x2 x3 x4 x5 x6 := by
  funext j
  obtain ⟨p, q, rfl⟩ : ∃ (p : Fin 5000) (q : Fin 64), j = ix2 p q := ⟨j 0, j 1, eq_ix2 j⟩
  unfold k1_pay1
  rw [shapeCast_self x2, shapeCast_self x1, shapeCast_self x3, hidden_eq]
  unfold Cert.Mlp.nodeSplit Cert.Mlp.prod
  simp only [addf_apply, matmul]
  rw [Cert.PlainDot.matmul_zero_apply dot_S5000x128_S128x64_S5000x64_1_0_0_1_n_n rfl, broadcastTo_1b_ab_apply,
    shapeCast_a_1a_apply]
  rfl

/-- The zero offsets of a whole-buffer access, as the constant function. -/
theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided once over the ten points: the node features, the aggregate and the result move
    together along the rows, point t at block t; every other block index is zero. -/
theorem index_facts : ∀ t : Fin cfg1.N, win1_7.index t (0 : Fin 2) = t.val ∧ win1_7.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0 :=
  (by decide +kernel : ∀ t : Fin grid1.N, _)

/-- Row r of the node layer depends only on row r of the node features and of the aggregate: two pairs of inputs whose
    rows agree give the same entry at equal columns. -/
theorem nodeSplit_rows {M M' : ℕ} (nf : Cert.Mlp.Mat M 64) (agg : Cert.Mlp.Mat M 128) (nf' : Cert.Mlp.Mat M' 64)
    (agg' : Cert.Mlp.Mat M' 128) (u1 : Cert.Mlp.Mat 64 128) (u2 : Cert.Mlp.Mat 128 128) (b1 : Cert.Mlp.Row 128)
    (w : Cert.Mlp.Mat 128 64) (b2 : Cert.Mlp.Row 64) (r : Fin M) (r' : Fin M') (q : Fin 64)
    (hnf : ∀ k : Fin 64, nf (ix2 r k) = nf' (ix2 r' k)) (hagg : ∀ k : Fin 128, agg (ix2 r k) = agg' (ix2 r' k)) :
    Cert.Mlp.nodeSplit nf agg u1 u2 b1 w b2 (ix2 r q) = Cert.Mlp.nodeSplit nf' agg' u1 u2 b1 w b2 (ix2 r' q) := by
  unfold Cert.Mlp.nodeSplit Cert.Mlp.prod Cert.Mlp.hiddenSplit Cert.Mlp.prod
  simp only [Cert.Mlp.rowOf_ix2, Cert.Mlp.colOf_ix2, hnf, hagg]

/-- The weight that meets the node features is one block at block index zero: read through it, the array itself. -/
theorem weight_u1_block (c : Dev nD) (t : Fin cfg1.N) : (iblk1 V c 2 t : Vec Ideal S64x128 .f32) = V c main_v25 := by
  obtain ⟨e70, e71, e00, e01, e10, e11, e20, e21, e30, e31, e40, e50, e51, e60⟩ := index_facts t
  funext x
  show V c main_v25 (((cfg1.win 2).blk t).view.emb x) = V c main_v25 x
  refine congrArg _ (funext fun a => Fin.ext ?_)
  match a with
  | ⟨0, _⟩ => show win1_2.index t (0 : Fin 2) * 64 + 1 * (x 0).val = (x 0).val; rw [e20]; omega
  | ⟨1, _⟩ => show win1_2.index t (1 : Fin 2) * 128 + 1 * (x 1).val = (x 1).val; rw [e21]; omega

/-- Likewise the weight that meets the aggregate. -/
theorem weight_u2_block (c : Dev nD) (t : Fin cfg1.N) : (iblk1 V c 3 t : Vec Ideal S128x128 .f32) = V c main_v26 := by
  obtain ⟨e70, e71, e00, e01, e10, e11, e20, e21, e30, e31, e40, e50, e51, e60⟩ := index_facts t
  funext x
  show V c main_v26 (((cfg1.win 3).blk t).view.emb x) = V c main_v26 x
  refine congrArg _ (funext fun a => Fin.ext ?_)
  match a with
  | ⟨0, _⟩ => show win1_3.index t (0 : Fin 2) * 128 + 1 * (x 0).val = (x 0).val; rw [e30]; omega
  | ⟨1, _⟩ => show win1_3.index t (1 : Fin 2) * 128 + 1 * (x 1).val = (x 1).val; rw [e31]; omega

/-- Likewise the hidden bias. -/
theorem bias1_block (c : Dev nD) (t : Fin cfg1.N) : (iblk1 V c 4 t : Vec Ideal S128 .f32) = V c main_arg6 := by
  obtain ⟨e70, e71, e00, e01, e10, e11, e20, e21, e30, e31, e40, e50, e51, e60⟩ := index_facts t
  funext x
  show V c main_arg6 (((cfg1.win 4).blk t).view.emb x) = V c main_arg6 x
  refine congrArg _ (funext fun a => Fin.ext ?_)
  match a with
  | ⟨0, _⟩ => show win1_4.index t (0 : Fin 1) * 128 + 1 * (x 0).val = (x 0).val; rw [e40]; omega

/-- Likewise the output weight. -/
theorem weight_w_block (c : Dev nD) (t : Fin cfg1.N) : (iblk1 V c 5 t : Vec Ideal S128x64 .f32) = V c main_arg7 := by
  obtain ⟨e70, e71, e00, e01, e10, e11, e20, e21, e30, e31, e40, e50, e51, e60⟩ := index_facts t
  funext x
  show V c main_arg7 (((cfg1.win 5).blk t).view.emb x) = V c main_arg7 x
  refine congrArg _ (funext fun a => Fin.ext ?_)
  match a with
  | ⟨0, _⟩ => show win1_5.index t (0 : Fin 2) * 128 + 1 * (x 0).val = (x 0).val; rw [e50]; omega
  | ⟨1, _⟩ => show win1_5.index t (1 : Fin 2) * 64 + 1 * (x 1).val = (x 1).val; rw [e51]; omega

/-- Likewise the output bias. -/
theorem bias2_block (c : Dev nD) (t : Fin cfg1.N) : (iblk1 V c 6 t : Vec Ideal S64 .f32) = V c main_arg8 := by
  obtain ⟨e70, e71, e00, e01, e10, e11, e20, e21, e30, e31, e40, e50, e51, e60⟩ := index_facts t
  funext x
  show V c main_arg8 (((cfg1.win 6).blk t).view.emb x) = V c main_arg8 x
  refine congrArg _ (funext fun a => Fin.ext ?_)
  match a with
  | ⟨0, _⟩ => show win1_6.index t (0 : Fin 1) * 64 + 1 * (x 0).val = (x 0).val; rw [e60]; omega

/-- What point t writes back is block t of the node layer of the whole arrays: rows 5000·t … 5000·t + 4999 of the node
    features and of the aggregate are the point's two moving blocks, and a row of the layer reads only that row of each. -/
theorem flushed_eq (c : Dev nD) (t : Fin cfg1.N) :
    (dat1 (F := Ideal) V c).flushed 7 t = ((cfg1.win 7).blk t).view.read (Elt Ideal)
      (Cert.Mlp.nodeSplit (V c main_arg0) (V c main_v24) (V c main_v25) (V c main_v26) (V c main_arg6) (V c main_arg7)
        (V c main_arg8)) := by
  show (cfg1.win 7).cut (grid1.coords t) ((dat1 V c).after 7 t) = _
  rw [after1_7]
  unfold out1_7
  rw [View.canon_unit_zero zeros2]
  simp only [View.ld_unit_zero (S := S5000x64) zeros2, View.ld_unit_zero (S := S5000x128) zeros2,
    View.ld_unit_zero (S := S64x128) zeros2, View.ld_unit_zero (S := S128x128) zeros2, View.ld_unit_zero (S := S128) zeros1,
    View.ld_unit_zero (S := S128x64) zeros2, View.ld_unit_zero (S := S64) zeros1]
  rw [block_eq]
  obtain ⟨e70, e71, e00, e01, e10, e11, e20, e21, e30, e31, e40, e50, e51, e60⟩ := index_facts t
  funext y
  show Cert.Mlp.nodeSplit (iblk1 V c 0 t) (iblk1 V c 1 t) (iblk1 V c 2 t) (iblk1 V c 3 t) (iblk1 V c 4 t) (iblk1 V c 5 t)
        (iblk1 V c 6 t) y
      = Cert.Mlp.nodeSplit (V c main_arg0) (V c main_v24) (V c main_v25) (V c main_v26) (V c main_arg6) (V c main_arg7)
        (V c main_arg8) (((cfg1.win 7).blk t).view.emb y)
  rw [weight_u1_block V c t, weight_u2_block V c t, bias1_block V c t, weight_w_block V c t, bias2_block V c t]
  obtain ⟨p, q, rfl⟩ : ∃ (p : Fin 5000) (q : Fin 64), y = ix2 p q := ⟨y 0, y 1, eq_ix2 y⟩
  have ht : t.val < 10 := t.isLt
  have hp : p.val < 5000 := p.isLt
  have hemb : ((cfg1.win 7).blk t).view.emb (ix2 p q) = ix2 (⟨t.val * 5000 + p.val, by omega⟩ : Fin 50000) q := by
    funext a
    apply Fin.ext
    match a with
    | ⟨0, _⟩ => show win1_7.index t (0 : Fin 2) * 5000 + 1 * p.val = t.val * 5000 + p.val; rw [e70]; omega
    | ⟨1, _⟩ => show win1_7.index t (1 : Fin 2) * 64 + 1 * q.val = q.val; rw [e71]; omega
  rw [hemb]
  refine nodeSplit_rows _ _ _ _ _ _ _ _ _ p _ q (fun k => ?_) (fun k => ?_)
  · show V c main_arg0 (((cfg1.win 0).blk t).view.emb (ix2 p k)) = _
    refine congrArg _ (funext fun a => Fin.ext ?_)
    match a with
    | ⟨0, _⟩ => show win1_0.index t (0 : Fin 2) * 5000 + 1 * p.val = t.val * 5000 + p.val; rw [e00]; omega
    | ⟨1, _⟩ => show win1_0.index t (1 : Fin 2) * 64 + 1 * k.val = k.val; rw [e01]; omega
  · show V c main_v24 (((cfg1.win 1).blk t).view.emb (ix2 p k)) = _
    refine congrArg _ (funext fun a => Fin.ext ?_)
    match a with
    | ⟨0, _⟩ => show win1_1.index t (0 : Fin 2) * 5000 + 1 * p.val = t.val * 5000 + p.val; rw [e10]; omega
    | ⟨1, _⟩ => show win1_1.index t (1 : Fin 2) * 128 + 1 * k.val = k.val; rw [e11]; omega

/-- An index of the result array is in point t's block iff each coordinate is in the block's range on its axis. -/
theorem mem_blk (t : Fin cfg1.N) (i : S50000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v27).slice (win1_7.rect t)).set ↔ _
  rw [View.set_slice_whole, Rect.mem_set_unit]
  exact Iff.rfl

/-- The ten blocks of 5000 rows cover the 50000 rows: row r is in the block of point r / 5000. -/
theorem cover (i : S50000x64.Idx) :
    ∃ t : Fin cfg1.N, (cfg1.win 7).flush t = true ∧ i ∈ ((cfg1.win 7).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by show (i 0).val / 5000 < 10; omega⟩, rfl⟩
  obtain ⟨e70, e71, -⟩ := index_facts t
  refine ⟨t, flush1_7 t, ?_⟩
  rw [mem_blk]
  intro a
  match a with
  | ⟨0, _⟩ =>
    show win1_7.index t (0 : Fin 2) * 5000 ≤ (i 0).val ∧ (i 0).val < win1_7.index t (0 : Fin 2) * 5000 + 5000
    rw [e70, ht]; omega
  | ⟨1, _⟩ =>
    show win1_7.index t (1 : Fin 2) * 64 ≤ (i 1).val ∧ (i 1).val < win1_7.index t (1 : Fin 2) * 64 + 64
    rw [e71]; omega

/-- The result array after the ten points is the node layer of the arrays the region found. -/
theorem final (c : Dev nD) :
    (dat1 (F := Ideal) V c).arrAt 7 cfg1.N
      = Cert.Mlp.nodeSplit (V c main_arg0) (V c main_v24) (V c main_v25) (V c main_v26) (V c main_arg6) (V c main_arg7)
          (V c main_arg8) :=
  (dat1 V c).arrAt_eq_of_cover 7 _ (fun t _ => flushed_eq V c t) cover

end Cert.KernelIdeal.NodeValue

end
-- ==== Proof.KernelValue.lean ====
import proofs.«174974_j146028888089_1_alg».proof.Proof.Gen.KernelIdeal.Frame
import proofs.«174974_j146028888089_1_alg».proof.Proof.MlpSpec
import proofs.«174974_j146028888089_1_alg».proof.Proof.EdgeValue
import proofs.«174974_j146028888089_1_alg».proof.Proof.NodeValue
import Idealize.ShloMosaic.Lib.StableHlo.Run

/-! # The kernel program's two results as functions of its arguments

Between the launch and the first region the host takes the two rows of the edge list, wraps negative entries by the number
of nodes, gathers the end nodes' feature rows, and cuts the edge weight into its three row blocks. The first region
leaves the edge layer of those arrays. The host then adds every edge's 128 numbers into the row of its first end node,
starting from zeros, and cuts the first node weight into its two row blocks; the second region leaves the node layer.
Reading the buffer contents at the four boundaries backwards gives each result as one term over the launch memory. -/

set_option maxRecDepth 16384

noncomputable section

namespace Cert.KernelIdeal.ProgramValue

open Cert.KernelIdeal Cert.KernelIdeal.Gen
open Idealize.ShloMosaic Idealize.ShloMosaic.TcCoe Idealize.SL.Sem Idealize.ShloMosaic.StableHlo

section Host
variable {F : FTy → Type} [FloatOps F]

/-- Row `0` of the edge list: each edge's first end node. -/
def firstEnds (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- Row `1` of the edge list: each edge's second end node. -/
def secondEnds (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- Node numbers as a column of gather indices, a negative number counted back from the number of nodes. -/
def wrapped (v : (⟨S800000, .i32⟩ : BufTy).Contents (Elt F)) : (⟨S800000x1, .i32⟩ : BufTy).Contents (Elt F) :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The feature rows of the nodes a column of indices names. -/
def rowsAt (x : (⟨S50000x64, .f32⟩ : BufTy).Contents (Elt F)) (i : (⟨S800000x1, .i32⟩ : BufTy).Contents (Elt F)) :
    (⟨S800000x64, .f32⟩ : BufTy).Contents (Elt F) :=
  Host.gather gather_S50000x64_S800000x1_S800000x64_1_0_n_n_0_1_164 x i

/-- Every edge's 128 numbers added into the row of its first end node, from zeros. -/
def summedAt (e : (⟨S2x800000, .i32⟩ : BufTy).Contents (Elt F)) (u : (⟨S800000x128, .f32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (firstEnds e)) u

end Host

variable (m : (ℓ : Loc nD τ sig) → Buf (Elt Ideal) ℓ) (ρ : Dev nD → PrngReg)

/-! ## The first region's inputs, read back to the launch memory -/

theorem in_v10 (c : Dev nD) : V1 m ρ c main_v10 = rowsAt (m ((c : Thread nD τ).loc main_arg0)) (wrapped (firstEnds (m ((c : Thread nD τ).loc main_arg1)))) := by
  show StableHlo.after hostOps0 (W0 m ρ c) (Proc.devRef .tc main_v10) = _
  simp only [hostOps0]
  after_results
  rfl

theorem in_v17 (c : Dev nD) : V1 m ρ c main_v17 = rowsAt (m ((c : Thread nD τ).loc main_arg0)) (wrapped (secondEnds (m ((c : Thread nD τ).loc main_arg1)))) := by
  show StableHlo.after hostOps0 (W0 m ρ c) (Proc.devRef .tc main_v17) = _
  simp only [hostOps0]
  after_results
  rfl

theorem in_arg2 (c : Dev nD) : V1 m ρ c main_arg2 = (m ((c : Thread nD τ).loc main_arg2)) := by
  show StableHlo.after hostOps0 (W0 m ρ c) (Proc.devRef .tc main_arg2) = _
  simp only [hostOps0]
  after_results

theorem in_v18 (c : Dev nD) : V1 m ρ c main_v18 = extractStridedSlice S64x128 ![0, 0] (m ((c : Thread nD τ).loc main_arg3)) slices_S144x128_S64x128_0_0 := by
  show StableHlo.after hostOps0 (W0 m ρ c) (Proc.devRef .tc main_v18) = _
  simp only [hostOps0]
  after_results

theorem in_v19 (c : Dev nD) : V1 m ρ c main_v19 = extractStridedSlice S64x128 ![64, 0] (m ((c : Thread nD τ).loc main_arg3)) slices_S144x128_S64x128_64_0 := by
  show StableHlo.after hostOps0 (W0 m ρ c) (Proc.devRef .tc main_v19) = _
  simp only [hostOps0]
  after_results

theorem in_v20 (c : Dev nD) : V1 m ρ c main_v20 = extractStridedSlice S16x128 ![128, 0] (m ((c : Thread nD τ).loc main_arg3)) slices_S144x128_S16x128_128_0 := by
  show StableHlo.after hostOps0 (W0 m ρ c) (Proc.devRef .tc main_v20) = _
  simp only [hostOps0]
  after_results

theorem in_arg4 (c : Dev nD) : V1 m ρ c main_arg4 = (m ((c : Thread nD τ).loc main_arg4)) := by
  show StableHlo.after hostOps0 (W0 m ρ c) (Proc.devRef .tc main_arg4) = _
  simp only [hostOps0]
  after_results

/-- The edge features the program computes, over the launch memory. -/
def edgeFeats (c : Dev nD) : Cert.Mlp.Mat 800000 128 :=
  Cert.Mlp.edgeLayer (rowsAt (m ((c : Thread nD τ).loc main_arg0)) (wrapped (firstEnds (m ((c : Thread nD τ).loc main_arg1))))) (rowsAt (m ((c : Thread nD τ).loc main_arg0)) (wrapped (secondEnds (m ((c : Thread nD τ).loc main_arg1)))))
    (m ((c : Thread nD τ).loc main_arg2)) (m ((c : Thread nD τ).loc main_arg3)) (m ((c : Thread nD τ).loc main_arg4))

/-- At the first region's exit the edge-feature buffer holds the edge layer. -/
theorem at_exit0 (c : Dev nD) : W2 m ρ c (Proc.devRef .tc main_v21) = edgeFeats m c := by
  rw [W2_arr m ρ c 7, EdgeValue.final (V1 m ρ) c, in_v10, in_v17, in_arg2, in_v18, in_v19, in_v20, in_arg4]
  exact Cert.Mlp.edgeSplit_slices _ _ _ _ _ _ _ _

/-! ## The second region's inputs -/

theorem in3_arg0 (c : Dev nD) : V3 m ρ c main_arg0 = (m ((c : Thread nD τ).loc main_arg0)) := by
  show StableHlo.after hostOps1 (W2 m ρ c) (Proc.devRef .tc main_arg0) = _
  simp only [hostOps1]
  after_results
  rw [W2_of_ne m ρ c main_arg0 (by decide)]
  show StableHlo.after hostOps0 (W0 m ρ c) (Proc.devRef .tc main_arg0) = _
  simp only [hostOps0]
  after_results

theorem in3_arg6 (c : Dev nD) : V3 m ρ c main_arg6 = (m ((c : Thread nD τ).loc main_arg6)) := by
  show StableHlo.after hostOps1 (W2 m ρ c) (Proc.devRef .tc main_arg6) = _
  simp only [hostOps1]
  after_results
  rw [W2_of_ne m ρ c main_arg6 (by decide)]
  show StableHlo.after hostOps0 (W0 m ρ c) (Proc.devRef .tc main_arg6) = _
  simp only [hostOps0]
  after_results

theorem in3_arg7 (c : Dev nD) : V3 m ρ c main_arg7 = (m ((c : Thread nD τ).loc main_arg7)) := by
  show StableHlo.after hostOps1 (W2 m ρ c) (Proc.devRef .tc main_arg7) = _
  simp only [hostOps1]
  after_results
  rw [W2_of_ne m ρ c main_arg7 (by decide)]
  show StableHlo.after hostOps0 (W0 m ρ c) (Proc.devRef .tc main_arg7) = _
  simp only [hostOps0]
  after_results

theorem in3_arg8 (c : Dev nD) : V3 m ρ c main_arg8 = (m ((c : Thread nD τ).loc main_arg8)) := by
  show StableHlo.after hostOps1 (W2 m ρ c) (Proc.devRef .tc main_arg8) = _
  simp only [hostOps1]
  after_results
  rw [W2_of_ne m ρ c main_arg8 (by decide)]
  show StableHlo.after hostOps0 (W0 m ρ c) (Proc.devRef .tc main_arg8) = _
  simp only [hostOps0]
  after_results

/-- The edge list's first row is still in its buffer at the first region's exit. -/
theorem at_exit0_v1 (c : Dev nD) : W2 m ρ c (Proc.devRef .tc main_v1) = firstEnds (m ((c : Thread nD τ).loc main_arg1)) := by
  rw [W2_of_ne m ρ c main_v1 (by decide)]
  show StableHlo.after hostOps0 (W0 m ρ c) (Proc.devRef .tc main_v1) = _
  simp only [hostOps0]
  after_results
  rfl

/-- The first node weight is untouched up to the first region's exit. -/
theorem at_exit0_arg5 (c : Dev nD) : W2 m ρ c (Proc.devRef .tc main_arg5) = (m ((c : Thread nD τ).loc main_arg5)) := by
  rw [W2_of_ne m ρ c main_arg5 (by decide)]
  show StableHlo.after hostOps0 (W0 m ρ c) (Proc.devRef .tc main_arg5) = _
  simp only [hostOps0]
  after_results

theorem in3_v24 (c : Dev nD) : V3 m ρ c main_v24 = summedAt (m ((c : Thread nD τ).loc main_arg1)) (edgeFeats m c) := by
  show StableHlo.after hostOps1 (W2 m ρ c) (Proc.devRef .tc main_v24) = _
  simp only [hostOps1]
  after_results
  rw [at_exit0_v1, at_exit0]
  rfl

theorem in3_v25 (c : Dev nD) : V3 m ρ c main_v25 = extractStridedSlice S64x128 ![0, 0] (m ((c : Thread nD τ).loc main_arg5)) slices_S192x128_S64x128_0_0 := by
  show StableHlo.after hostOps1 (W2 m ρ c) (Proc.devRef .tc main_v25) = _
  simp only [hostOps1]
  after_results
  rw [at_exit0_arg5]

theorem in3_v26 (c : Dev nD) : V3 m ρ c main_v26 = extractStridedSlice S128x128 ![64, 0] (m ((c : Thread nD τ).loc main_arg5)) slices_S192x128_S128x128_64_0 := by
  show StableHlo.after hostOps1 (W2 m ρ c) (Proc.devRef .tc main_v26) = _
  simp only [hostOps1]
  after_results
  rw [at_exit0_arg5]

/-! ## The two results -/

/-- The node output the program computes, over the launch memory. -/
def nodeOut (c : Dev nD) : Cert.Mlp.Mat 50000 64 :=
  Cert.Mlp.nodeLayer (m ((c : Thread nD τ).loc main_arg0)) (summedAt (m ((c : Thread nD τ).loc main_arg1)) (edgeFeats m c)) (m ((c : Thread nD τ).loc main_arg5)) (m ((c : Thread nD τ).loc main_arg6)) (m ((c : Thread nD τ).loc main_arg7)) (m ((c : Thread nD τ).loc main_arg8))

/-- After the last boundary the node-output buffer holds the node layer. -/
theorem result_node (c : Dev nD) : W4 m ρ c (Proc.devRef .tc main_v27) = nodeOut m c := by
  rw [W4_arr m ρ c 7, NodeValue.final (V3 m ρ) c, in3_arg0, in3_v24, in3_v25, in3_v26, in3_arg6, in3_arg7, in3_arg8]
  exact Cert.Mlp.nodeSplit_slices _ _ _ _ _ _ _ _

/-- After the last boundary the edge-feature buffer still holds the edge layer: nothing after the first region writes it. -/
theorem result_edge (c : Dev nD) : W4 m ρ c (Proc.devRef .tc main_v21) = edgeFeats m c := by
  rw [W4_of_ne m ρ c main_v21 (by decide)]
  show StableHlo.after hostOps1 (W2 m ρ c) (Proc.devRef .tc main_v21) = _
  simp only [hostOps1]
  after_results
  exact at_exit0 m ρ c

end Cert.KernelIdeal.ProgramValue

end
-- ==== Proof.RefValue.lean ====
import proofs.«174974_j146028888089_1_alg».proof.Proof.Gen.ReferenceIdeal.Read
import proofs.«174974_j146028888089_1_alg».proof.Proof.MlpSpec
import proofs.«174974_j146028888089_1_alg».proof.Proof.LibPlainDot
import Idealize.ShloMosaic.Lib.Pipeline.Value
import Idealize.ShloMosaic.Lib.ValueLayout
import Mathlib.Algebra.BigOperators.Fin

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open scoped BigOperators

/-! # The reference's two dense layers are the specification's

The reference joins its operands along the columns before each first product: the edge layer multiplies the 144-column
join of the two end nodes' features (64 columns each) and the edge's attributes (16 columns) by a 144-row weight; the
node layer multiplies the 192-column join of the node's features (64) and the aggregate (128) by a 192-row weight.
At an entry `(p, q)` the product is a sum over the joined columns. That sum splits into the sums over the pieces'
column ranges (`Fin.sum_univ_add`), the joined array at column `o + k` of a piece that starts at column `o` is that
piece at column `k`, and what is left is, term by term, the product of the piece with the weight read from row `o`:
`Cert.Mlp.edgeLayer` and `Cert.Mlp.nodeLayer`. The two sides group the partial sums the same way, so no law of
addition beyond the split is used, and nothing is assumed finite. The gathered end-node features and the scattered aggregate are carried as
variables throughout. -/

/-- A sum over 144 columns is the sum over columns 0–63, plus that over 64–127, plus that over 128–143. -/
theorem sum_144 (f : Fin 144 → EReal) :
    ∑ k : Fin 144, f k
      = ∑ k : Fin 64, f ⟨0 + k.val, by omega⟩ + ∑ k : Fin 64, f ⟨64 + k.val, by omega⟩
        + ∑ k : Fin 16, f ⟨128 + k.val, by omega⟩ := by
  have h1 := Fin.sum_univ_add (M := EReal) (a := 128) (b := 16) f
  have h2 := Fin.sum_univ_add (M := EReal) (a := 64) (b := 64) (fun k => f (Fin.castAdd 16 k))
  rw [show ∑ k : Fin 144, f k = ∑ k : Fin (128 + 16), f k from rfl, h1, h2]
  congr 2

/-- A sum over 192 columns is the sum over columns 0–63 plus that over 64–191. -/
theorem sum_192 (f : Fin 192 → EReal) :
    ∑ k : Fin 192, f k = ∑ k : Fin 64, f ⟨0 + k.val, by omega⟩ + ∑ k : Fin 128, f ⟨64 + k.val, by omega⟩ := by
  have h1 := Fin.sum_univ_add (M := EReal) (a := 64) (b := 128) f
  rw [show ∑ k : Fin 192, f k = ∑ k : Fin (64 + 128), f k from rfl, h1]
  congr 1

section Join

variable {M : ℕ}

/-- The three-piece join along the columns, read at column `o + k` of the piece whose columns start at `o`. -/
theorem join3_apply (a b : Cert.Mlp.Mat M 64) (e : Cert.Mlp.Mat M 16)
    (h : Shape.Concatenates [(⟨2, ![M, 64]⟩ : Shape), ⟨2, ![M, 64]⟩, ⟨2, ![M, 16]⟩] ⟨2, ![M, 144]⟩ 1)
    (r : Fin M) :
    (∀ k : Fin 64, concatenate (⟨2, ![M, 144]⟩ : Shape) 1 [⟨⟨2, ![M, 64]⟩, a⟩, ⟨⟨2, ![M, 64]⟩, b⟩, ⟨⟨2, ![M, 16]⟩, e⟩] h
        (ix2 r (⟨0 + k.val, by omega⟩ : Fin 144)) = a (ix2 r k))
    ∧ (∀ k : Fin 64, concatenate (⟨2, ![M, 144]⟩ : Shape) 1 [⟨⟨2, ![M, 64]⟩, a⟩, ⟨⟨2, ![M, 64]⟩, b⟩, ⟨⟨2, ![M, 16]⟩, e⟩] h
        (ix2 r (⟨64 + k.val, by omega⟩ : Fin 144)) = b (ix2 r k))
    ∧ (∀ k : Fin 16, concatenate (⟨2, ![M, 144]⟩ : Shape) 1 [⟨⟨2, ![M, 64]⟩, a⟩, ⟨⟨2, ![M, 64]⟩, b⟩, ⟨⟨2, ![M, 16]⟩, e⟩] h
        (ix2 r (⟨128 + k.val, by omega⟩ : Fin 144)) = e (ix2 r k)) := by
  refine ⟨fun k => ?_, fun k => ?_, fun k => ?_⟩
  · refine concatenate_apply_piece (t := ⟨2, ![M, 144]⟩) 1
      [⟨⟨2, ![M, 64]⟩, a⟩, ⟨⟨2, ![M, 64]⟩, b⟩, ⟨⟨2, ![M, 16]⟩, e⟩] h _ 0 (by simp) ⟨2, ![M, 64]⟩ a rfl rfl 0 rfl (ix2 r k) ?_ ?_
    · intro c hc
      match c with
      | ⟨0, _⟩ => rfl
      | ⟨1, _⟩ => exact absurd rfl hc
    · rfl
  · refine concatenate_apply_piece (t := ⟨2, ![M, 144]⟩) 1
      [⟨⟨2, ![M, 64]⟩, a⟩, ⟨⟨2, ![M, 64]⟩, b⟩, ⟨⟨2, ![M, 16]⟩, e⟩] h _ 1 (by simp) ⟨2, ![M, 64]⟩ b rfl rfl 64 rfl (ix2 r k) ?_ ?_
    · intro c hc
      match c with
      | ⟨0, _⟩ => rfl
      | ⟨1, _⟩ => exact absurd rfl hc
    · rfl
  · refine concatenate_apply_piece (t := ⟨2, ![M, 144]⟩) 1
      [⟨⟨2, ![M, 64]⟩, a⟩, ⟨⟨2, ![M, 64]⟩, b⟩, ⟨⟨2, ![M, 16]⟩, e⟩] h _ 2 (by simp) ⟨2, ![M, 16]⟩ e rfl rfl 128 rfl (ix2 r k) ?_ ?_
    · intro c hc
      match c with
      | ⟨0, _⟩ => rfl
      | ⟨1, _⟩ => exact absurd rfl hc
    · rfl

/-- The two-piece join along the columns, read at column `o + k` of the piece whose columns start at `o`. -/
theorem join2_apply (a : Cert.Mlp.Mat M 64) (g : Cert.Mlp.Mat M 128)
    (h : Shape.Concatenates [(⟨2, ![M, 64]⟩ : Shape), ⟨2, ![M, 128]⟩] ⟨2, ![M, 192]⟩ 1) (r : Fin M) :
    (∀ k : Fin 64, concatenate (⟨2, ![M, 192]⟩ : Shape) 1 [⟨⟨2, ![M, 64]⟩, a⟩, ⟨⟨2, ![M, 128]⟩, g⟩] h
        (ix2 r (⟨0 + k.val, by omega⟩ : Fin 192)) = a (ix2 r k))
    ∧ (∀ k : Fin 128, concatenate (⟨2, ![M, 192]⟩ : Shape) 1 [⟨⟨2, ![M, 64]⟩, a⟩, ⟨⟨2, ![M, 128]⟩, g⟩] h
        (ix2 r (⟨64 + k.val, by omega⟩ : Fin 192)) = g (ix2 r k)) := by
  refine ⟨fun k => ?_, fun k => ?_⟩
  · refine concatenate_apply_piece (t := ⟨2, ![M, 192]⟩) 1
      [⟨⟨2, ![M, 64]⟩, a⟩, ⟨⟨2, ![M, 128]⟩, g⟩] h _ 0 (by simp) ⟨2, ![M, 64]⟩ a rfl rfl 0 rfl (ix2 r k) ?_ ?_
    · intro c hc
      match c with
      | ⟨0, _⟩ => rfl
      | ⟨1, _⟩ => exact absurd rfl hc
    · rfl
  · refine concatenate_apply_piece (t := ⟨2, ![M, 192]⟩) 1
      [⟨⟨2, ![M, 64]⟩, a⟩, ⟨⟨2, ![M, 128]⟩, g⟩] h _ 1 (by simp) ⟨2, ![M, 128]⟩ g rfl rfl 64 rfl (ix2 r k) ?_ ?_
    · intro c hc
      match c with
      | ⟨0, _⟩ => rfl
      | ⟨1, _⟩ => exact absurd rfl hc
    · rfl

end Join

/-- The edge stage of the reference is the edge layer of the gathered end-node features, the edge attributes, the
    144-row weight and the bias. -/
theorem edge_eq (x0 : (⟨S50000x64, .f32⟩ : BufTy).Contents (Elt Ideal)) (x1 : (⟨S2x800000, .i32⟩ : BufTy).Contents (Elt Ideal))
    (x2 : (⟨S800000x16, .f32⟩ : BufTy).Contents (Elt Ideal)) (x3 : (⟨S144x128, .f32⟩ : BufTy).Contents (Elt Ideal))
    (x4 : (⟨S128, .f32⟩ : BufTy).Contents (Elt Ideal)) :
    val_main_v23 (F := Ideal) x0 x1 x2 x3 x4
      = Cert.Mlp.edgeLayer (val_main_v10 (F := Ideal) x0 x1) (val_main_v17 (F := Ideal) x0 x1) x2 x3 x4 := by
  funext j
  obtain ⟨p, q, rfl⟩ : ∃ (p : Fin 800000) (q : Fin 128), j = ix2 p q := ⟨j 0, j 1, eq_ix2 j⟩
  rw [val_main_v23_apply, val_main_v22_apply, val_main_v19_apply, val_main_v21_apply, val_main_v20_apply,
    val_main_call0_v0_apply, val_main_call0_cst_apply]
  unfold val_main_v18
  generalize val_main_v10 (F := Ideal) x0 x1 = a
  generalize val_main_v17 (F := Ideal) x0 x1 = b
  -- the product's operand indices at entry (p, q): row p of the joined array, column q of the weight
  have el : ∀ k : Fin 144, lidx_main_v19 (ix2 p q) k = ix2 p k := fun k =>
    funext fun c => by match c with | ⟨0, _⟩ => rfl | ⟨1, _⟩ => rfl
  have er : ∀ k : Fin 144, ridx_main_v19 (ix2 p q) k = ix2 k q := fun k =>
    funext fun c => by match c with | ⟨0, _⟩ => rfl | ⟨1, _⟩ => rfl
  have eb : idx_main_v20 (idx_main_v21 (ix2 p q)) = ix1 q :=
    funext fun c => by match c with | ⟨0, _⟩ => rfl
  simp only [el, er]
  rw [eb, sum_144]
  obtain ⟨j0, j1, j2⟩ := join3_apply a b x2 concatenates_S800000x64_S800000x64_S800000x16_S800000x144_d1 p
  simp only [j0, j1, j2]
  -- at the extended reals the maximum with the zero word is `max · 0`, and the three partial sums are the three
  -- products of the layer with the weight read from rows 0, 64 and 128
  show max (_ + x4 (ix1 q)) (Ideal.ofBits .f32 0x00000000#32) = _
  rw [Ideal.ofBits_zero_f32]
  rfl

/-- The hidden row of the node layer: the stage before the second product is `hiddenLayer` of the node features and
    the aggregate. The 192 joined columns split into the features' 64 and the aggregate's 128. -/
theorem hidden_eq (x0 : (⟨S50000x64, .f32⟩ : BufTy).Contents (Elt Ideal)) (x1 : (⟨S2x800000, .i32⟩ : BufTy).Contents (Elt Ideal))
    (x2 : (⟨S800000x16, .f32⟩ : BufTy).Contents (Elt Ideal)) (x3 : (⟨S144x128, .f32⟩ : BufTy).Contents (Elt Ideal))
    (x4 : (⟨S128, .f32⟩ : BufTy).Contents (Elt Ideal)) (x5 : (⟨S192x128, .f32⟩ : BufTy).Contents (Elt Ideal))
    (x6 : (⟨S128, .f32⟩ : BufTy).Contents (Elt Ideal)) :
    val_main_v32 (F := Ideal) x0 x1 x2 x3 x4 x5 x6
      = Cert.Mlp.hiddenLayer x0 (val_main_v26 (F := Ideal) x0 x1 x2 x3 x4) x5 x6 := by
  funext j
  obtain ⟨p, q, rfl⟩ : ∃ (p : Fin 50000) (q : Fin 128), j = ix2 p q := ⟨j 0, j 1, eq_ix2 j⟩
  rw [val_main_v32_apply, val_main_v31_apply, val_main_v28_apply, val_main_v30_apply, val_main_v29_apply,
    val_main_call1_v0_apply, val_main_call1_cst_apply]
  unfold val_main_v27
  generalize val_main_v26 (F := Ideal) x0 x1 x2 x3 x4 = g
  -- the product's operand indices at entry (p, q): row p of the joined array, column q of the weight
  have el : ∀ k : Fin 192, lidx_main_v28 (ix2 p q) k = ix2 p k := fun k =>
    funext fun c => by match c with | ⟨0, _⟩ => rfl | ⟨1, _⟩ => rfl
  have er : ∀ k : Fin 192, ridx_main_v28 (ix2 p q) k = ix2 k q := fun k =>
    funext fun c => by match c with | ⟨0, _⟩ => rfl | ⟨1, _⟩ => rfl
  have eb : idx_main_v29 (idx_main_v30 (ix2 p q)) = ix1 q :=
    funext fun c => by match c with | ⟨0, _⟩ => rfl
  simp only [el, er]
  rw [eb, sum_192]
  obtain ⟨j0, j1⟩ := join2_apply x0 g concatenates_S50000x64_S50000x128_S50000x192_d1 p
  simp only [j0, j1]
  -- the maximum with the zero word is `max · 0`; the two partial sums are the products with the weight read from
  -- rows 0 and 64
  show max (_ + x6 (ix1 q)) (Ideal.ofBits .f32 0x00000000#32) = _
  rw [Ideal.ofBits_zero_f32]
  rfl

/-- The node stage of the reference is the node layer of the node features and the aggregate: the hidden row by
    `hidden_eq`, then the second product and its bias entry by entry. -/
theorem node_eq (x0 : (⟨S50000x64, .f32⟩ : BufTy).Contents (Elt Ideal)) (x1 : (⟨S2x800000, .i32⟩ : BufTy).Contents (Elt Ideal))
    (x2 : (⟨S800000x16, .f32⟩ : BufTy).Contents (Elt Ideal)) (x3 : (⟨S144x128, .f32⟩ : BufTy).Contents (Elt Ideal))
    (x4 : (⟨S128, .f32⟩ : BufTy).Contents (Elt Ideal)) (x5 : (⟨S192x128, .f32⟩ : BufTy).Contents (Elt Ideal))
    (x6 : (⟨S128, .f32⟩ : BufTy).Contents (Elt Ideal)) (x7 : (⟨S128x64, .f32⟩ : BufTy).Contents (Elt Ideal))
    (x8 : (⟨S64, .f32⟩ : BufTy).Contents (Elt Ideal)) :
    val_main_v36 (F := Ideal) x0 x1 x2 x3 x4 x5 x6 x7 x8
      = Cert.Mlp.nodeLayer x0 (val_main_v26 (F := Ideal) x0 x1 x2 x3 x4) x5 x6 x7 x8 := by
  funext j
  obtain ⟨p, q, rfl⟩ : ∃ (p : Fin 50000) (q : Fin 64), j = ix2 p q := ⟨j 0, j 1, eq_ix2 j⟩
  rw [val_main_v36_apply, val_main_v33_apply, val_main_v35_apply, val_main_v34_apply, hidden_eq]
  generalize val_main_v26 (F := Ideal) x0 x1 x2 x3 x4 = g
  -- the outer product's operand indices at entry (p, q): row p of the hidden array, column q of the weight
  have el : ∀ k : Fin 128, lidx_main_v33 (ix2 p q) k = ix2 p k := fun k =>
    funext fun c => by match c with | ⟨0, _⟩ => rfl | ⟨1, _⟩ => rfl
  have er : ∀ k : Fin 128, ridx_main_v33 (ix2 p q) k = ix2 k q := fun k =>
    funext fun c => by match c with | ⟨0, _⟩ => rfl | ⟨1, _⟩ => rfl
  have eb : idx_main_v34 (idx_main_v35 (ix2 p q)) = ix1 q :=
    funext fun c => by match c with | ⟨0, _⟩ => rfl
  simp only [el, er]
  rw [eb]
  rfl

end Cert.ReferenceIdeal.RefValue

end
-- ==== Proof.Bridge.lean ====
import proofs.«174974_j146028888089_1_alg».proof.Proof.KernelValue
import proofs.«174974_j146028888089_1_alg».proof.Proof.RefValue

/-! # The two programs share their host operations

Both programs take the two rows of the edge list, wrap negative node numbers, gather the end nodes' feature rows, and
add every edge's numbers into the row of its first end node from zeros, by the same operations with the same dimension
numbers. Stated over variable arrays: the reference's stages are the kernel program's named functions. Neither a gather
nor the scatter is opened. With that, the reference's two results are the same edge layer and node layer as the kernel
program's. -/

noncomputable section

namespace Cert.Proof.Bridge

open Idealize.ShloMosaic Idealize.ShloMosaic.TcCoe
open Cert.KernelIdeal.ProgramValue (firstEnds secondEnds wrapped rowsAt summedAt)

section Shared
variable {F : FTy → Type} [FloatOps F]

/-- The reference's first gathered array is the feature rows at the wrapped first end nodes. -/
theorem rows_first (x0 : (⟨Cert.ReferenceIdeal.S50000x64, .f32⟩ : BufTy).Contents (Elt F))
    (x1 : (⟨Cert.ReferenceIdeal.S2x800000, .i32⟩ : BufTy).Contents (Elt F)) :
    Cert.ReferenceIdeal.Read.val_main_v10 (F := F) x0 x1 = rowsAt x0 (wrapped (firstEnds x1)) := rfl

/-- The reference's second gathered array is the feature rows at the wrapped second end nodes. -/
theorem rows_second (x0 : (⟨Cert.ReferenceIdeal.S50000x64, .f32⟩ : BufTy).Contents (Elt F))
    (x1 : (⟨Cert.ReferenceIdeal.S2x800000, .i32⟩ : BufTy).Contents (Elt F)) :
    Cert.ReferenceIdeal.Read.val_main_v17 (F := F) x0 x1 = rowsAt x0 (wrapped (secondEnds x1)) := rfl

/-- The reference's scatter-add of an array of edge numbers is the kernel program's. -/
theorem summed (x1 : (⟨Cert.ReferenceIdeal.S2x800000, .i32⟩ : BufTy).Contents (Elt F))
    (u : (⟨Cert.ReferenceIdeal.S800000x128, .f32⟩ : BufTy).Contents (Elt F)) :
    Host.scatterAdd Cert.ReferenceIdeal.scatter_S50000x128_S800000x1_S800000x128_1_0_0_1
        (Cert.ReferenceIdeal.Read.val_main_v24 (F := F)) (Cert.ReferenceIdeal.Read.val_main_v25 (F := F) x1) u
      = summedAt x1 u := rfl

end Shared

open Cert.ReferenceIdeal.Read

/-- The reference's edge features are the edge layer of the shared gathered arrays. -/
theorem ref_edge (x0 : (⟨Cert.ReferenceIdeal.S50000x64, .f32⟩ : BufTy).Contents (Elt Ideal))
    (x1 : (⟨Cert.ReferenceIdeal.S2x800000, .i32⟩ : BufTy).Contents (Elt Ideal))
    (x2 : (⟨Cert.ReferenceIdeal.S800000x16, .f32⟩ : BufTy).Contents (Elt Ideal))
    (x3 : (⟨Cert.ReferenceIdeal.S144x128, .f32⟩ : BufTy).Contents (Elt Ideal))
    (x4 : (⟨Cert.ReferenceIdeal.S128, .f32⟩ : BufTy).Contents (Elt Ideal)) :
    val_main_v23 (F := Ideal) x0 x1 x2 x3 x4
      = Cert.Mlp.edgeLayer (rowsAt x0 (wrapped (firstEnds x1))) (rowsAt x0 (wrapped (secondEnds x1))) x2 x3 x4 := by
  rw [Cert.ReferenceIdeal.RefValue.edge_eq, rows_first, rows_second]

/-- The reference's aggregate is the shared scatter-add of that edge layer. -/
theorem ref_agg (x0 : (⟨Cert.ReferenceIdeal.S50000x64, .f32⟩ : BufTy).Contents (Elt Ideal))
    (x1 : (⟨Cert.ReferenceIdeal.S2x800000, .i32⟩ : BufTy).Contents (Elt Ideal))
    (x2 : (⟨Cert.ReferenceIdeal.S800000x16, .f32⟩ : BufTy).Contents (Elt Ideal))
    (x3 : (⟨Cert.ReferenceIdeal.S144x128, .f32⟩ : BufTy).Contents (Elt Ideal))
    (x4 : (⟨Cert.ReferenceIdeal.S128, .f32⟩ : BufTy).Contents (Elt Ideal)) :
    val_main_v26 (F := Ideal) x0 x1 x2 x3 x4
      = summedAt x1 (Cert.Mlp.edgeLayer (rowsAt x0 (wrapped (firstEnds x1))) (rowsAt x0 (wrapped (secondEnds x1))) x2 x3 x4) := by
  unfold val_main_v26
  rw [ref_edge, summed]

/-- The reference's node output is the node layer of that aggregate. -/
theorem ref_node (x0 : (⟨Cert.ReferenceIdeal.S50000x64, .f32⟩ : BufTy).Contents (Elt Ideal))
    (x1 : (⟨Cert.ReferenceIdeal.S2x800000, .i32⟩ : BufTy).Contents (Elt Ideal))
    (x2 : (⟨Cert.ReferenceIdeal.S800000x16, .f32⟩ : BufTy).Contents (Elt Ideal))
    (x3 : (⟨Cert.ReferenceIdeal.S144x128, .f32⟩ : BufTy).Contents (Elt Ideal))
    (x4 : (⟨Cert.ReferenceIdeal.S128, .f32⟩ : BufTy).Contents (Elt Ideal))
    (x5 : (⟨Cert.ReferenceIdeal.S192x128, .f32⟩ : BufTy).Contents (Elt Ideal))
    (x6 : (⟨Cert.ReferenceIdeal.S128, .f32⟩ : BufTy).Contents (Elt Ideal))
    (x7 : (⟨Cert.ReferenceIdeal.S128x64, .f32⟩ : BufTy).Contents (Elt Ideal))
    (x8 : (⟨Cert.ReferenceIdeal.S64, .f32⟩ : BufTy).Contents (Elt Ideal)) :
    val_main_v36 (F := Ideal) x0 x1 x2 x3 x4 x5 x6 x7 x8
      = Cert.Mlp.nodeLayer x0
          (summedAt x1 (Cert.Mlp.edgeLayer (rowsAt x0 (wrapped (firstEnds x1))) (rowsAt x0 (wrapped (secondEnds x1))) x2 x3 x4))
          x5 x6 x7 x8 := by
  rw [Cert.ReferenceIdeal.RefValue.node_eq, ref_agg]

end Cert.Proof.Bridge

end
-- ==== Proof.lean ====
/- One message-passing step of a graph network, a kernel program against its reference, over the extended reals.

   Both programs gather, for each of 800000 edges, the 64 features of its two end nodes, apply the EDGE layer
   `max (src · W₁ + tgt · W₂ + attr · W₃ + b, 0)` (the reference as one product of the 144-column join with the whole
   weight, the kernel as three products with the weight's row blocks), add each edge's 128 numbers into the row of its
   first end node, and apply the NODE layer `max (nf · U₁ + agg · U₂ + b₁, 0) · W + b₂` (again one 192-column join against
   two products). The two sides differ only in how a sum over the joined columns is grouped: a sum over 144 columns is the
   sum over the first 64, the next 64 and the last 16. That holds in any commutative monoid, so on the extended reals with
   no finiteness, and the precondition is never opened. The gathers and the scatter-add are the same operations on both
   sides and are carried as opaque functions.

   The kernel program's frames are the generated ones; its run with the two results named is the same launch read at the
   result buffers (Proof/KernelRun.lean); each region's array is the layer of the region's inputs (Proof/EdgeValue.lean,
   Proof/NodeValue.lean), read back through the host operations to the launch memory (Proof/KernelValue.lean); the
   reference's stages are the same layers (Proof/RefValue.lean) of the same host functions (Proof/Bridge.lean). The ideal
   pass rewrote nothing, so `preserves` is `True`. -/
import proofs.«174974_j146028888089_1_alg».proof.Defs
import proofs.«174974_j146028888089_1_alg».proof.Proof.Gen.Kernel
import proofs.«174974_j146028888089_1_alg».proof.Proof.Gen.Kernel.Skeleton
import proofs.«174974_j146028888089_1_alg».proof.Proof.Gen.Kernel.Launch
import proofs.«174974_j146028888089_1_alg».proof.Proof.Gen.Kernel.Points
import proofs.«174974_j146028888089_1_alg».proof.Proof.Gen.Kernel.Frame
import proofs.«174974_j146028888089_1_alg».proof.Proof.Gen.KernelIdeal
import proofs.«174974_j146028888089_1_alg».proof.Proof.Gen.KernelIdeal.Skeleton
import proofs.«174974_j146028888089_1_alg».proof.Proof.Gen.KernelIdeal.Launch
import proofs.«174974_j146028888089_1_alg».proof.Proof.Gen.KernelIdeal.Points
import proofs.«174974_j146028888089_1_alg».proof.Proof.Gen.KernelIdeal.Frame
import proofs.«174974_j146028888089_1_alg».proof.Proof.Gen.ReferenceIdeal
import proofs.«174974_j146028888089_1_alg».proof.Proof.Gen.Pre_finite_inputs
import proofs.«174974_j146028888089_1_alg».proof.Proof.Gen.ReferenceIdeal.Run
import proofs.«174974_j146028888089_1_alg».proof.Proof.Gen.ReferenceIdeal.Read
import proofs.«174974_j146028888089_1_alg».proof.Proof.KernelRun
import proofs.«174974_j146028888089_1_alg».proof.Proof.KernelValue
import proofs.«174974_j146028888089_1_alg».proof.Proof.Bridge
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization is the program's own text read over the extended reals: nothing was rewritten. -/
theorem preserves : Cert.preserves_Kernel_KernelIdeal := trivial

/-- From memories that agree on the nine arguments both programs end with the node layer of the aggregated edge layer in
    the first result and the edge layer in the second. -/
theorem algebraic : Cert.algebraic_KernelIdeal_ReferenceIdeal := by
  intro m ρ m' ρ' _ hagree
  refine ⟨fun c => Cert.KernelIdeal.ProgramValue.nodeOut m c, fun c => Cert.KernelIdeal.ProgramValue.edgeFeats m c, ?_, ?_⟩
  · exact (θ_run Cert.KernelIdeal.defs _ _).mono
      (fun r h c => ⟨(h c).1.trans (Cert.KernelIdeal.ProgramValue.result_node m ρ c),
        (h c).2.1.trans (Cert.KernelIdeal.ProgramValue.result_edge m ρ c), (h c).2.2⟩)
      (Cert.KernelIdeal.RunNamed.run m ρ)
  · refine (θ_run Cert.ReferenceIdeal.defs _ _).mono
      (fun r h c => ⟨(h c).1.trans ?_, (h c).2.1.trans ?_, (h c).2.2⟩)
      (Cert.ReferenceIdeal.Value.run (F := Ideal) m' ρ')
    · obtain ⟨h0, h1, h2, h3, h4, h5, h6, h7, h8⟩ := hagree c
      rw [Cert.ReferenceIdeal.Read.val_main_v36_eq, Cert.Proof.Bridge.ref_node, h0, h1, h2, h3, h4, h5, h6, h7, h8]
      rfl
    · obtain ⟨h0, h1, h2, h3, h4, -⟩ := hagree c
      rw [Cert.ReferenceIdeal.Read.val_main_v23_eq, Cert.Proof.Bridge.ref_edge, h0, h1, h2, h3, h4]
      rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
